-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S5115 : Shape := ⟨1, ![5115]⟩
abbrev S1024 : Shape := ⟨1, ![1024]⟩
abbrev S1024x1 : Shape := ⟨2, ![1024, 1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S5115 : S_.BroadcastsInDim S5115 (![] : Fin 0 → Fin S5115.rank)
  reducesTo_S5115_S_d0 : S5115.ReducesTo [0] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg1 : IVec S5115 32) (main_arg2 : IVec S5115 32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_c_6 : IVec S_ 32 := constantI S_ 32 0#32
  let main_v19 : IVec S5115 32 := broadcastInDim S5115 ![] bcast_S_S5115 main_c_6
  let main_v20 : IVec S5115 1 := cmpi .sge main_arg1 main_v19
  let main_c_7 : IVec S_ 32 := constantI S_ 32 4096#32
  let main_v21 : IVec S5115 32 := broadcastInDim S5115 ![] bcast_S_S5115 main_c_7
  let main_v22 : IVec S5115 1 := cmpi .slt main_arg1 main_v21
  let main_v23 : IVec S5115 1 := andi main_v20 main_v22
  let main_c_8 : IVec S_ 1 := constantI S_ 1 1#1
  let main_v24 : IVec S_ 1 := (fun x v => Host.reduce IntOp.andi x v reducesTo_S5115_S_d0 h_S_) main_v23 main_c_8
  let main_v25 : IVec S_ 1 := andi main_v18 main_v24
  let main_c_9 : IVec S_ 32 := constantI S_ 32 0#32
  let main_v26 : IVec S5115 32 := broadcastInDim S5115 ![] bcast_S_S5115 main_c_9
  let main_v27 : IVec S5115 1 := cmpi .sge main_arg2 main_v26
  let main_c_10 : IVec S_ 32 := constantI S_ 32 1024#32
  let main_v28 : IVec S5115 32 := broadcastInDim S5115 ![] bcast_S_S5115 main_c_10
  let main_v29 : IVec S5115 1 := cmpi .slt main_arg2 main_v28
  let main_v30 : IVec S5115 1 := andi main_v27 main_v29
  let main_c_11 : IVec S_ 1 := constantI S_ 1 1#1
  let main_v31 : IVec S_ 1 := (fun x v => Host.reduce IntOp.andi x v reducesTo_S5115_S_d0 h_S_) main_v30 main_c_11
  let main_v32 : IVec S_ 1 := andi main_v25 main_v31
  main_v32

def fn {F : FTy → Type} [FloatOps F] (main_arg0 : FVec F S8192x4096 .f32) (main_arg1 : IVec S5115 32) (main_arg2 : IVec S5115 32) (main_arg3 : FVec F S5115 .f32) (main_arg4 : FVec F S1024 .f32) (main_arg5 : FVec F S1024x1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S5115 .f32 := Host.absf main_arg3
  let main_cst_0 : FVec F S_ .f32 := constant S_ .f32 0x7F800000#32
  let main_v5 : FVec F S5115 .f32 := broadcastInDim S5115 ![] bcast_S_S5115 main_cst_0
  let main_v6 : IVec S5115 1 := cmpf .olt main_v4 main_v5
  let main_c_1 : IVec S_ 1 := constantI S_ 1 1#1
  let main_v7 : IVec S_ 1 := (fun x v => Host.reduce IntOp.andi x v reducesTo_S5115_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg5
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg1 main_arg2 main_v13 main_v16
-- ==== Kernel.lean ====
abbrev S8192x4096 : Shape := ⟨2, ![8192, 4096]⟩
abbrev S5115 : Shape := ⟨1, ![5115]⟩
abbrev S1024 : Shape := ⟨1, ![1024]⟩
abbrev S1024x1 : Shape := ⟨2, ![1024, 1]⟩
abbrev S_ : Shape := ⟨0, ![]⟩
abbrev S5115x1 : Shape := ⟨2, ![5115, 1]⟩
abbrev S5115x2 : Shape := ⟨2, ![5115, 2]⟩
abbrev S4096 : Shape := ⟨1, ![4096]⟩
abbrev S1x4096 : Shape := ⟨2, ![1, 4096]⟩
abbrev S8192x1 : Shape := ⟨2, ![8192, 1]⟩
abbrev S1024x4096 : Shape := ⟨2, ![1024, 4096]⟩
abbrev S1024x512 : Shape := ⟨2, ![1024, 512]⟩
abbrev S1x512 : Shape := ⟨2, ![1, 512]⟩

abbrev nBuf : Space → Nat
  | .hbm => 44
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S5115, .i32⟩
  | .hbm, ⟨2, _⟩ => ⟨S5115, .i32⟩
  | .hbm, ⟨3, _⟩ => ⟨S5115, .f32⟩
  | .hbm, ⟨4, _⟩ => ⟨S1024, .f32⟩
  | .hbm, ⟨5, _⟩ => ⟨S1024x1, .f32⟩
  | .hbm, ⟨6, _⟩ => ⟨S_, .i32⟩
  | .hbm, ⟨7, _⟩ => ⟨S5115, .i32⟩
  | .hbm, ⟨8, _⟩ => ⟨S5115, .i1⟩
  | .hbm, ⟨9, _⟩ => ⟨S_, .i32⟩
  | .hbm, ⟨10, _⟩ => ⟨S5115, .i32⟩
  | .hbm, ⟨11, _⟩ => ⟨S5115, .i32⟩
  | .hbm, ⟨12, _⟩ => ⟨S5115, .i32⟩
  | .hbm, ⟨13, _⟩ => ⟨S5115x1, .i32⟩
  | .hbm, ⟨14, _⟩ => ⟨S5115, .f32⟩
  | .hbm, ⟨15, _⟩ => ⟨S_, .i32⟩
  | .hbm, ⟨16, _⟩ => ⟨S5115, .i32⟩
  | .hbm, ⟨17, _⟩ => ⟨S5115, .i1⟩
  | .hbm, ⟨18, _⟩ => ⟨S_, .i32⟩
  | .hbm, ⟨19, _⟩ => ⟨S5115, .i32⟩
  | .hbm, ⟨20, _⟩ => ⟨S5115, .i32⟩
  | .hbm, ⟨21, _⟩ => ⟨S5115, .i32⟩
  | .hbm, ⟨22, _⟩ => ⟨S_, .i32⟩
  | .hbm, ⟨23, _⟩ => ⟨S5115, .i32⟩
  | .hbm, ⟨24, _⟩ => ⟨S5115, .i32⟩
  | .hbm, ⟨25, _⟩ => ⟨S5115x1, .i32⟩
  | .hbm, ⟨26, _⟩ => ⟨S5115x1, .i32⟩
  | .hbm, ⟨27, _⟩ => ⟨S5115x2, .i32⟩
  | .hbm, ⟨28, _⟩ => ⟨S5115, .f32⟩
  | .hbm, ⟨29, _⟩ => ⟨S5115, .f32⟩
  | .hbm, ⟨30, _⟩ => ⟨S5115, .f32⟩
  | .hbm, ⟨31, _⟩ => ⟨S_, .f32⟩
  | .hbm, ⟨32, _⟩ => ⟨S4096, .f32⟩
  | .hbm, ⟨33, _⟩ => ⟨S_, .i32⟩
  | .hbm, ⟨34, _⟩ => ⟨S5115, .i32⟩
  | .hbm, ⟨35, _⟩ => ⟨S5115, .i1⟩
  | .hbm, ⟨36, _⟩ => ⟨S_, .i32⟩
  | .hbm, ⟨37, _⟩ => ⟨S5115, .i32⟩
  | .hbm, ⟨38, _⟩ => ⟨S5115, .i32⟩
  | .hbm, ⟨39, _⟩ => ⟨S5115, .i32⟩
  | .hbm, ⟨40, _⟩ => ⟨S5115x1, .i32⟩
  | .hbm, ⟨41, _⟩ => ⟨S4096, .f32⟩
  | .hbm, ⟨42, _⟩ => ⟨S1x4096, .f32⟩
  | .hbm, ⟨43, _⟩ => ⟨S8192x1, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1024x1, .f32⟩
  | .local _ .vmem, ⟨4, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_1 : Ref sig .tc := ⟨.hbm, 15, rfl⟩
abbrev main_call0_v7 : Ref sig .tc := ⟨.hbm, 16, rfl⟩
abbrev main_call0_v8 : Ref sig .tc := ⟨.hbm, 17, rfl⟩
abbrev main_call0_c_2 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_cst : Ref sig .tc := ⟨.hbm, 31, rfl⟩
abbrev main_call0_v20 : Ref sig .tc := ⟨.hbm, 32, rfl⟩
abbrev main_call0_c_4 : Ref sig .tc := ⟨.hbm, 33, rfl⟩
abbrev main_call0_v21 : Ref sig .tc := ⟨.hbm, 34, rfl⟩
abbrev main_call0_v22 : Ref sig .tc := ⟨.hbm, 35, rfl⟩
abbrev main_call0_c_5 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_v0 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c512_i32 : BitVec 32 := 512#32
  let v1 : BitVec 32 := Scalar.muli c0_i32 c512_i32
  v1
def k0_off1 (c0_i32 : BitVec 32) : Fin 2 → Nat :=
  let c0 : Index := 0#32
  let c512_i32 : BitVec 32 := 512#32
  let v1 : BitVec 32 := Scalar.muli c0_i32 c512_i32
  let v2 : BitVec 32 := v1
  let v3 : Index := Scalar.indexCast v2
  ![0, v3.toNat]
def k0_off2 (c0_i32 : BitVec 32) : Fin 2 → Nat :=
  let c0_0 : Index := 0#32
  let c512_i32 : BitVec 32 := 512#32
  let v1 : BitVec 32 := Scalar.muli c0_i32 c512_i32
  let v2 : BitVec 32 := v1
  let v5 : Index := Scalar.indexCast v2
  ![0, v5.toNat]
def k0_mult2 : BitVec 32 :=
  let c1_i32 : BitVec 32 := 1#32
  let c512_i32_1 : BitVec 32 := 512#32
  let v11 : BitVec 32 := Scalar.muli c1_i32 c512_i32_1
  v11
def k0_mult3 : BitVec 32 :=
  let c2_i32 : BitVec 32 := 2#32
  let c512_i32_4 : BitVec 32 := 512#32
  let v21 : BitVec 32 := Scalar.muli c2_i32 c512_i32_4
  v21
def k0_mult4 : BitVec 32 :=
  let c3_i32 : BitVec 32 := 3#32
  let c512_i32_7 : BitVec 32 := 512#32
  let v31 : BitVec 32 := Scalar.muli c3_i32 c512_i32_7
  v31
def k0_mult5 : BitVec 32 :=
  let c4_i32 : BitVec 32 := 4#32
  let c512_i32_10 : BitVec 32 := 512#32
  let v41 : BitVec 32 := Scalar.muli c4_i32 c512_i32_10
  v41
def k0_mult6 : BitVec 32 :=
  let c5_i32 : BitVec 32 := 5#32
  let c512_i32_13 : BitVec 32 := 512#32
  let v51 : BitVec 32 := Scalar.muli c5_i32 c512_i32_13
  v51
def k0_mult7 : BitVec 32 :=
  let c6_i32 : BitVec 32 := 6#32
  let c512_i32_16 : BitVec 32 := 512#32
  let v61 : BitVec 32 := Scalar.muli c6_i32 c512_i32_16
  v61
def k0_mult8 : BitVec 32 :=
  let c7_i32 : BitVec 32 := 7#32
  let c512_i32_19 : BitVec 32 := 512#32
  let v71 : BitVec 32 := Scalar.muli c7_i32 c512_i32_19
  v71
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S5115 : S_.BroadcastsInDim S5115 (![] : Fin 0 → Fin S5115.rank)
  bcast_S5115_S5115x1_0 : S5115.BroadcastsInDim S5115x1 (![0] : Fin 1 → Fin S5115x1.rank)
  concatenates_S5115x1_S5115x1_S5115x2_d1 : Shape.Concatenates [S5115x1, S5115x1] S5115x2 1
  bcast_S_S4096 : S_.BroadcastsInDim S4096 (![] : Fin 0 → Fin S4096.rank)
  shapeCasts_S4096_S1x4096 : S4096.ShapeCasts S1x4096
  h_S1024x512 : 0 < S1024x512.numel
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  gather_S1024_S5115x1_S5115_n_0_n_n_0_1_1_wf : GatherDims.WF S1024 S5115x1 S5115 [] [0] [] [0] [] 1 ![1]
  gather_S1024x1_S5115x2_S5115_n_01_n_n_01_1_11_wf : GatherDims.WF S1024x1 S5115x2 S5115 [] [0, 1] [] [0, 1] [] 1 ![1, 1]
  scatter_S4096_S5115x1_S5115_n_0_0_1_wf : ScatterDims.WF S4096 S5115x1 S5115 [] [0] [0] 1
  hrank0 : 0 < grid0.rank
  k0_mult1_dvd : 512 ∣ k0_mult1.toNat
  k0_off1_inb : ∀ (r : Fin 8), ∀ a, (k0_off1 (BitVec.ofNat 32 r.val)) a + S1024x512.size a ≤ S1024x4096.size a
  k0_off2_inb : ∀ (r : Fin 8), ∀ a, (k0_off2 (BitVec.ofNat 32 r.val)) a + S1x512.size a ≤ S1x4096.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def gather_S1024_S5115x1_S5115_n_0_n_n_0_1_1 : GatherDims S1024 S5115x1 S5115 where
  offsetDims := []
  collapsedSliceDims := [0]
  operandBatchingDims := []
  startIndicesBatchingDims := []
  startIndexMap := [0]
  indexVectorDim := 1
  sliceSizes := ![1]
  wf := gather_S1024_S5115x1_S5115_n_0_n_n_0_1_1_wf
def gather_S1024x1_S5115x2_S5115_n_01_n_n_01_1_11 : GatherDims S1024x1 S5115x2 S5115 where
  offsetDims := []
  collapsedSliceDims := [0, 1]
  operandBatchingDims := []
  startIndicesBatchingDims := []
  startIndexMap := [0, 1]
  indexVectorDim := 1
  sliceSizes := ![1, 1]
  wf := gather_S1024x1_S5115x2_S5115_n_01_n_n_01_1_11_wf
def scatter_S4096_S5115x1_S5115_n_0_0_1 : ScatterDims S4096 S5115x1 S5115 where
  updateWindowDims := []
  insertedWindowDims := [0]
  scatterDimsToOperandDims := [0]
  indexVectorDim := 1
  wf := scatter_S4096_S5115x1_S5115_n_0_0_1_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v28) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S5115 : Shape := ⟨1, ![5115]⟩
abbrev S1024 : Shape := ⟨1, ![1024]⟩
abbrev S1024x1 : Shape := ⟨2, ![1024, 1]⟩
abbrev S_ : Shape := ⟨0, ![]⟩
abbrev S5115x1 : Shape := ⟨2, ![5115, 1]⟩
abbrev S8192x5115 : Shape := ⟨2, ![8192, 5115]⟩
abbrev S1x5115 : Shape := ⟨2, ![1, 5115]⟩
abbrev S5115x8192 : Shape := ⟨2, ![5115, 8192]⟩
abbrev S1024x8192 : Shape := ⟨2, ![1024, 8192]⟩
abbrev S8192x1024 : Shape := ⟨2, ![8192, 1024]⟩
abbrev S1x1024 : Shape := ⟨2, ![1, 1024]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S5115, .i32⟩
  | .hbm, ⟨2, _⟩ => ⟨S5115, .i32⟩
  | .hbm, ⟨3, _⟩ => ⟨S5115, .f32⟩
  | .hbm, ⟨4, _⟩ => ⟨S1024, .f32⟩
  | .hbm, ⟨5, _⟩ => ⟨S1024x1, .f32⟩
  | .hbm, ⟨6, _⟩ => ⟨S_, .i32⟩
  | .hbm, ⟨7, _⟩ => ⟨S5115, .i32⟩
  | .hbm, ⟨8, _⟩ => ⟨S5115, .i1⟩
  | .hbm, ⟨9, _⟩ => ⟨S_, .i32⟩
  | .hbm, ⟨10, _⟩ => ⟨S5115, .i32⟩
  | .hbm, ⟨11, _⟩ => ⟨S5115, .i32⟩
  | .hbm, ⟨12, _⟩ => ⟨S5115, .i32⟩
  | .hbm, ⟨13, _⟩ => ⟨S5115x1, .i32⟩
  | .hbm, ⟨14, _⟩ => ⟨S8192x5115, .f32⟩
  | .hbm, ⟨15, _⟩ => ⟨S1x5115, .f32⟩
  | .hbm, ⟨16, _⟩ => ⟨S8192x5115, .f32⟩
  | .hbm, ⟨17, _⟩ => ⟨S8192x5115, .f32⟩
  | .hbm, ⟨18, _⟩ => ⟨S5115x8192, .f32⟩
  | .hbm, ⟨19, _⟩ => ⟨S_, .f32⟩
  | .hbm, ⟨20, _⟩ => ⟨S1024x8192, .f32⟩
  | .hbm, ⟨21, _⟩ => ⟨S5115x1, .i32⟩
  | .hbm, ⟨22, _⟩ => ⟨S1024x8192, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S5115 : S_.BroadcastsInDim S5115 (![] : Fin 0 → Fin S5115.rank)
  bcast_S5115_S5115x1_0 : S5115.BroadcastsInDim S5115x1 (![0] : Fin 1 → Fin S5115x1.rank)
  bcast_S5115_S1x5115_1 : S5115.BroadcastsInDim S1x5115 (![1] : Fin 1 → Fin S1x5115.rank)
  bcast_S1x5115_S8192x5115_0_1 : S1x5115.BroadcastsInDim S8192x5115 (![0, 1] : Fin 2 → Fin S8192x5115.rank)
  transposes_S8192x5115_S5115x8192_1_0 : S8192x5115.Transposes [1, 0] S5115x8192
  bcast_S_S1024x8192 : S_.BroadcastsInDim S1024x8192 (![] : Fin 0 → Fin S1024x8192.rank)
  transposes_S1024x8192_S8192x1024_1_0 : S1024x8192.Transposes [1, 0] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  gather_S8192x4096_S5115x1_S8192x5115_0_1_n_n_1_1_81921_wf : GatherDims.WF S8192x4096 S5115x1 S8192x5115 [0] [1] [] [1] [] 1 ![8192, 1]
  scatter_S1024x8192_S5115x1_S5115x8192_1_0_0_1_wf : ScatterDims.WF S1024x8192 S5115x1 S5115x8192 [1] [0] [0] 1
  dot_S8192x1024_S1024x1_S8192x1_1_0_0_1_n_n_wf : DotDims.WF S8192x1024 S1024x1 S8192x1 [1] [0] [0] [1] [] []

variable [Facts₀]

def gather_S8192x4096_S5115x1_S8192x5115_0_1_n_n_1_1_81921 : GatherDims S8192x4096 S5115x1 S8192x5115 where
  offsetDims := [0]
  collapsedSliceDims := [1]
  operandBatchingDims := []
  startIndicesBatchingDims := []
  startIndexMap := [1]
  indexVectorDim := 1
  sliceSizes := ![8192, 1]
  wf := gather_S8192x4096_S5115x1_S8192x5115_0_1_n_n_1_1_81921_wf
def scatter_S1024x8192_S5115x1_S5115x8192_1_0_0_1 : ScatterDims S1024x8192 S5115x1 S5115x8192 where
  updateWindowDims := [1]
  insertedWindowDims := [0]
  scatterDimsToOperandDims := [0]
  indexVectorDim := 1
  wf := scatter_S1024x8192_S5115x1_S5115x8192_1_0_0_1_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf

class Facts : Prop extends Facts₀ where

variable [Facts]
-- ==== Proof.PreFacts.lean ====
import proofs.«411112_j39685497815127_3_alg».proof.Pre_finite_inputs
import Idealize.ShloMosaic.Lib.ReduceAll
import Idealize.ShloMosaic.Lib.StableHlo.Predicate
import Idealize.ShloMosaic.Lib.ValueIdx

/-!
  The precondition of the certificate, read back. The printed predicate is the conjunction of six
  "for all elements" tests: four say that the absolute value of every element of a float array is
  below +∞, two say that every word of an index array lies in a half-open range starting at 0.
  Here the statement "the predicate is true" is turned into the six facts themselves: every float
  element is a real number, and every index word, read signed, lies in its range.
-/

noncomputable section
namespace Cert.PreFacts
open Idealize.ShloMosaic Cert.Pre_finite_inputs
variable [Cert.Pre_finite_inputs.Facts]

/-- What the precondition says of the six argument arrays. -/
structure Decoded (x : FVec Ideal S8192x4096 .f32) (fi sg : IVec S5115 32) (w : FVec Ideal S5115 .f32)
    (d : FVec Ideal S1024 .f32) (D : FVec Ideal S1024x1 .f32) : Prop where
  x_real : ∀ i, ∃ r : ℝ, x i = (r : EReal)
  w_real : ∀ i, ∃ r : ℝ, w i = (r : EReal)
  d_real : ∀ i, ∃ r : ℝ, d i = (r : EReal)
  D_real : ∀ i, ∃ r : ℝ, D i = (r : EReal)
  fi_range : ∀ i, 0 ≤ (fi i).toInt ∧ (fi i).toInt < 4096
  sg_range : ∀ i, 0 ≤ (sg i).toInt ∧ (sg i).toInt < 1024

/-- The scalar shape has exactly one index. -/
instance subsingleton_scalar_idx : Subsingleton S_.Idx := ⟨fun _ _ => funext fun d => d.elim0⟩

/-- An extended real whose absolute value `max a (-a)` is strictly below +∞ (the value the word
    `0x7F800000` denotes) is neither infinity, hence a real number. -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) :
    ∃ r : ℝ, a = (r : EReal) := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  unfold Ideal.cmp at h
  rw [StableHlo.Predicate.ofBool_eq_one_iff, decide_eq_true_eq, max_lt_iff] at h
  induction a using EReal.rec with
  | bot => exact absurd h.2 (by simp)
  | coe r => exact ⟨r, rfl⟩
  | top => exact absurd h.1 (by simp)

/-- A 32-bit word that passes both signed tests `0 ≤ a` and `a < n` lies, read signed, in `[0, n)`. -/
theorem range_of_tests (a n : BitVec 32)
    (h : IntOp.andi (IntOp.cmpi .sge a 0#32) (IntOp.cmpi .slt a n) = 1#1) :
    0 ≤ a.toInt ∧ a.toInt < n.toInt := by
  obtain ⟨h1, h2⟩ := IntOp.andi_eq_one.1 h
  unfold IntOp.cmpi at h1 h2
  rw [StableHlo.Predicate.ofBool_eq_one_iff] at h1 h2
  simp only [BitVec.sle, BitVec.slt, decide_eq_true_eq] at h1 h2
  have h0 : (0#32 : BitVec 32).toInt = 0 := by decide
  rw [h0] at h1
  exact ⟨h1, h2⟩

theorem decode (x : FVec Ideal S8192x4096 .f32) (fi sg : IVec S5115 32) (w : FVec Ideal S5115 .f32)
    (d : FVec Ideal S1024 .f32) (D : FVec Ideal S1024x1 .f32)
    (h : fn (F := Ideal) x fi sg w d D = fun _ => 1#1) : Decoded x fi sg w d D := by
  have h0 := congrFun h ValueIdx.ix0
  unfold fn fn_part1 at h0
  dsimp only [andi] at h0
  -- the six conjuncts, outermost first
  obtain ⟨h0, hsg⟩ := IntOp.andi_eq_one.1 h0
  obtain ⟨h0, hfi⟩ := IntOp.andi_eq_one.1 h0
  obtain ⟨h0, hD⟩ := IntOp.andi_eq_one.1 h0
  obtain ⟨h0, hd⟩ := IntOp.andi_eq_one.1 h0
  obtain ⟨hx, hw⟩ := IntOp.andi_eq_one.1 h0
  have e4096 : (4096#32 : BitVec 32).toInt = 4096 := by decide
  have e1024 : (1024#32 : BitVec 32).toInt = 1024 := by decide
  -- each "for all" test holds at every element; a scalar broadcast reads the scalar everywhere
  refine ⟨fun i => ?_, fun i => ?_, fun i => ?_, fun i => ?_, fun i => ?_, fun i => ?_⟩
  · exact real_of_abs_lt_inf (x i) (Host.reduce_andi_all _ _ _ _ _ hx i)
  · exact real_of_abs_lt_inf (w i) (Host.reduce_andi_all _ _ _ _ _ hw i)
  · exact real_of_abs_lt_inf (d i) (Host.reduce_andi_all _ _ _ _ _ hd i)
  · exact real_of_abs_lt_inf (D i) (Host.reduce_andi_all _ _ _ _ _ hD i)
  · have hr := range_of_tests (fi i) 4096#32 (Host.reduce_andi_all _ _ _ _ _ hfi i)
    rw [e4096] at hr
    exact hr
  · have hr := range_of_tests (sg i) 1024#32 (Host.reduce_andi_all _ _ _ _ _ hsg i)
    rw [e1024] at hr
    exact hr

end Cert.PreFacts
end
-- ==== Proof.TableSum.lean ====
/-
  The arithmetic that joins the two programs, over abstract finite index types.

  A table of K entries names, for each entry k, a feature `fi k` and a group `sg k`. The reference sums, group by
  group, the weighted features of the group's entries, scales the group's sum by two per-group factors and adds the
  groups up. The kernel first folds the table into one weight per feature (the sum, over the entries naming that
  feature, of the entry's weight times its group's two factors) and then takes the inner product of the row with
  those weights, eight chunks of 512 lanes at a time. Over the reals both are the one sum over the table's entries
  `∑ k, X (fi k) * (W k * (Dg (sg k) * Dn (sg k)))`: distributivity moves the per-group factors inside the group's
  sum and the row's entry inside the feature's sum, and each double sum over fibers is the sum over all entries.
  Distributivity is where finiteness is used: the statements are about coercions of real numbers.
-/
import Idealize.ShloMosaic.PureOps.Ideal
import Mathlib.Algebra.BigOperators.Fin

noncomputable section

open scoped BigOperators

namespace Cert.TableSum

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {K G Fe : Type*} [Fintype K] [Fintype G] [DecidableEq G] [Fintype Fe] [DecidableEq Fe]

/-- Group by group: each group's weighted sum, scaled by the group's two factors, summed over the groups, is the sum
    over the table's entries. -/
theorem by_groups (fi : K → Fe) (sg : K → G) (X : Fe → ℝ) (W : K → ℝ) (Dg Dn : G → ℝ) :
    ∑ g, ((0 + ∑ k ∈ Finset.univ.filter (fun k => sg k = g), (X (fi k) : EReal) * (W k : EReal)) * (Dg g : EReal)) * (Dn g : EReal)
      = ((∑ k, X (fi k) * (W k * (Dg (sg k) * Dn (sg k))) : ℝ) : EReal) := by
  have h : (∑ g, ((∑ k ∈ Finset.univ.filter (fun k => sg k = g), X (fi k) * W k) * Dg g) * Dn g : ℝ)
      = ∑ k, X (fi k) * (W k * (Dg (sg k) * Dn (sg k))) := by
    rw [← Finset.sum_fiberwise Finset.univ sg]
    refine Finset.sum_congr rfl fun g _ => ?_
    rw [Finset.sum_mul, Finset.sum_mul]
    refine Finset.sum_congr rfl fun k hk => ?_
    have e : sg k = g := (Finset.mem_filter.mp hk).2
    subst e; ring
  rw [← h]
  simp only [zero_add, coe_sum, EReal.coe_mul]

/-- Feature by feature: the row's inner product with the folded per-feature weights is the sum over the table's
    entries. -/
theorem by_features (fi : K → Fe) (sg : K → G) (X : Fe → ℝ) (W : K → ℝ) (Dg Dn : G → ℝ) :
    ∑ f, (X f : EReal) * (0 + ∑ k ∈ Finset.univ.filter (fun k => fi k = f), (W k : EReal) * ((Dg (sg k) : EReal) * (Dn (sg k) : EReal)))
      = ((∑ k, X (fi k) * (W k * (Dg (sg k) * Dn (sg k))) : ℝ) : EReal) := by
  have h : (∑ f, X f * ∑ k ∈ Finset.univ.filter (fun k => fi k = f), W k * (Dg (sg k) * Dn (sg k)) : ℝ)
      = ∑ k, X (fi k) * (W k * (Dg (sg k) * Dn (sg k))) := by
    rw [← Finset.sum_fiberwise Finset.univ fi]
    refine Finset.sum_congr rfl fun f _ => ?_
    rw [Finset.mul_sum]
    refine Finset.sum_congr rfl fun k hk => ?_
    have e : fi k = f := (Finset.mem_filter.mp hk).2
    subst e; rfl
  rw [← h]
  simp only [zero_add, coe_sum, EReal.coe_mul]

/-! ## Eight chunks of 512 lanes are the 4096 features -/

/-- Lane `j` of chunk `c`. -/
def lane (c : Fin 8) (j : Fin 512) : Fin 4096 := ⟨512 * c.val + j.val, by omega⟩

/-- A feature is a chunk and a lane. -/
def laneEquiv : Fin 8 × Fin 512 ≃ Fin 4096 where
  toFun p := lane p.1 p.2
  invFun f := (⟨f.val / 512, by omega⟩, ⟨f.val % 512, by omega⟩)
  left_inv p := by
    obtain ⟨c, j⟩ := p
    refine Prod.ext (Fin.ext ?_) (Fin.ext ?_)
    · show (512 * c.val + j.val) / 512 = c.val
      omega
    · show (512 * c.val + j.val) % 512 = j.val
      omega
  right_inv f := by
    refine Fin.ext ?_
    show 512 * (f.val / 512) + f.val % 512 = f.val
    omega

/-- The running sum over the eight chunks, lane by lane, then over the lanes, is the sum over all features: the same
    terms in another order. -/
theorem sum_lanes {M : Type*} [AddCommMonoid M] (A : Fin 4096 → M) :
    ∑ j : Fin 512, ((((((((0 + A (lane 0 j)) + A (lane 1 j)) + A (lane 2 j)) + A (lane 3 j)) + A (lane 4 j)) + A (lane 5 j))
        + A (lane 6 j)) + A (lane 7 j))
      = ∑ f, A f := by
  rw [← Equiv.sum_comp laneEquiv A, Fintype.sum_prod_type, Finset.sum_comm]
  refine Finset.sum_congr rfl fun j _ => ?_
  rw [Fin.sum_univ_eight, zero_add]
  rfl

end Cert.TableSum

end
-- ==== Proof.LibIndexedOps.lean ====
/-
  Accumulating scatters and gathers read at an index, for the dimension numbers jnp's `.at[idx].add`,
  `segment_sum`, `table[idx]`, `x[:, idx]` and `table[idx, 0]` print.

  A scatter's update lands on an operand element exactly when, on every operand axis, the start read signed off the
  scatter indices plus the window coordinate is that element's coordinate (`landsAt_iff`); nothing is clamped, and an
  update that lands nowhere is dropped. So over the extended reals an accumulating scatter's element is the operand's
  element plus the sum of the updates whose index word, read signed, is the element's coordinate:
  `scatterAdd_vec_apply` for a vector scattered into by scalars, `scatterAdd_rows_apply` for a matrix whose rows are
  scattered into by rows. A gather reads the operand where the start index, read signed and clamped into the
  operand, says: `gather_vec_apply` (a vector's entries), `gather_cols_apply` (a matrix's columns),
  `gather_col0_apply` (entries of a one-column matrix named by a row word and a column word).
  The dimension numbers are literal records over the shapes' extents, their side conditions a hypothesis that a
  program's own stated fact supplies; a printed record with the same axis lists is such a record by `rfl`.
-/
import Idealize.ShloMosaic.PureOps.Ideal
import Idealize.ShloMosaic.PureOps.Contract
import Idealize.ShloMosaic.Lib.ValueIdx

noncomputable section

open scoped BigOperators

namespace Idealize.ShloMosaic.IndexedOps

open Idealize.ShloMosaic Idealize.ShloMosaic.ValueIdx

/-! ## Where an update lands -/

/-- An update lands on operand element `i` exactly when start plus window coordinate is `i`'s coordinate on every axis. -/
theorem landsAt_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · next hh =>
      have e := congrArg Fin.val (congrFun (Option.some.inj h) a)
      have e' : (d.start j idx a + (d.window j a : ℤ)).toNat = (i a).val := e
      have := (hh a).1
      omega
    · exact absurd h (by simp)
  · intro h
    have hh : ∀ a, 0 ≤ d.start j idx a + (d.window j a : ℤ) ∧ d.start j idx a + (d.window j a : ℤ) < s.size a := fun a => by
      have := h a; have := (i a).isLt; omega
    rw [dif_pos hh]
    congr 1
    funext a
    apply Fin.ext
    show (d.start j idx a + (d.window j a : ℤ)).toNat = (i a).val
    have := h a; omega

/-- A vector's indices are its coordinates. -/
def vecEquiv (n : Nat) : Fin n ≃ (⟨1, ![n]⟩ : Shape).Idx where
  toFun k := ix1 k
  invFun j := j 0
  left_inv _ := rfl
  right_inv j := (eq_ix1 j).symm

/-! ## A vector scattered into by scalars: `zeros(N).at[idx].add(upd)` -/

/-- Operand `[N]`, scatter indices `[n, 1]`, updates `[n]`: no window axis, the operand's axis inserted and named by the
    one index component. -/
abbrev vecScatterDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

theorem vec_start (k : Fin n) (idx : IVec ⟨2, ![n, 1]⟩ w) :
    (vecScatterDims N n wf).start (ix1 k) idx 0 = (idx (ix2 k 0)).toInt := by
  unfold ScatterDims.start
  rw [dif_pos (show (0 : Fin 1) ∈ (vecScatterDims N n wf).scatterDimsToOperandDims from List.mem_singleton.mpr rfl)]
  have hsi : (vecScatterDims N n wf).siIdx (ix1 k) ⟨List.idxOf (0 : Fin 1) (vecScatterDims N n wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  rw [hsi]

theorem vec_window (k : Fin n) : (vecScatterDims N n wf).window (ix1 k) 0 = 0 := rfl

/-- Entry `f` of the scattered-into vector: its own element plus the updates whose index word is `f`. -/
theorem scatterAdd_vec_apply {φ : FTy} (x : FVec Ideal ⟨1, ![N]⟩ φ) (idx : IVec ⟨2, ![n, 1]⟩ w) (upd : FVec Ideal ⟨1, ![n]⟩ φ) (f : Fin N) :
    Host.scatterAdd (F := Ideal) (vecScatterDims N n wf) x idx upd (ix1 f)
      = x (ix1 f) + ∑ k ∈ Finset.univ.filter (fun k : Fin n => (idx (ix2 k 0)).toInt = (f.val : ℤ)), upd (ix1 k) := by
  show Ideal.hostScatterAdd (vecScatterDims N n wf) x idx upd (ix1 f) = _
  unfold Ideal.hostScatterAdd
  congr 1
  rw [Finset.sum_filter, Finset.sum_filter, ← Equiv.sum_comp (vecEquiv n)]
  refine Finset.sum_congr rfl fun k _ => ?_
  refine if_congr ?_ rfl rfl
  show (vecScatterDims N n wf).resultIdx? (ix1 k) idx = some (ix1 f) ↔ _
  rw [landsAt_iff]
  constructor
  · intro h
    have h0 : (idx (ix2 k 0)).toInt + ((0 : ℕ) : ℤ) = (((ix1 f) 0).val : ℤ) := by
      have := h 0; rwa [vec_start, vec_window] at this
    simp only [Nat.cast_zero, add_zero] at h0
    exact h0
  · intro h a
    obtain rfl : a = 0 := Subsingleton.elim _ _
    rw [vec_start, vec_window]
    simp only [Nat.cast_zero, add_zero]
    exact h

end Vec

/-! ## A matrix whose rows are scattered into by rows: `segment_sum(rows, ids)` -/

/-- Operand `[G, B]`, scatter indices `[n, 1]`, updates `[n, B]`: the updates' second axis is the window, going to the
    operand's second axis; the operand's first axis is inserted and named by the one index component. -/
abbrev rowScatterDims (G B n : Nat) (wf : ScatterDims.WF ⟨2, ![G, B]⟩ ⟨2, ![n, 1]⟩ ⟨2, ![n, B]⟩ [1] [0] [0] 1) :
    ScatterDims ⟨2, ![G, B]⟩ ⟨2, ![n, 1]⟩ ⟨2, ![n, B]⟩ where
  updateWindowDims := [1]
  insertedWindowDims := [0]
  scatterDimsToOperandDims := [0]
  indexVectorDim := 1
  wf := wf

section Rows
variable {G B n w : Nat} (wf : ScatterDims.WF ⟨2, ![G, B]⟩ ⟨2, ![n, 1]⟩ ⟨2, ![n, B]⟩ [1] [0] [0] 1)

theorem rows_start0 (k : Fin n) (b : Fin B) (idx : IVec ⟨2, ![n, 1]⟩ w) :
    (rowScatterDims G B n wf).start (ix2 k b) idx 0 = (idx (ix2 k 0)).toInt := by
  unfold ScatterDims.start
  rw [dif_pos (show (0 : Fin 2) ∈ (rowScatterDims G B n wf).scatterDimsToOperandDims from List.mem_singleton.mpr rfl)]
  have hsi : (rowScatterDims G B n wf).siIdx (ix2 k b) ⟨List.idxOf (0 : Fin 2) (rowScatterDims G B n wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

theorem rows_start1 (k : Fin n) (b : Fin B) (idx : IVec ⟨2, ![n, 1]⟩ w) :
    (rowScatterDims G B n wf).start (ix2 k b) idx 1 = 0 := by
  unfold ScatterDims.start
  rw [dif_neg (show (1 : Fin 2) ∉ ([0] : List (Fin 2)) by decide)]

theorem rows_window0 (k : Fin n) (b : Fin B) : (rowScatterDims G B n wf).window (ix2 k b) 0 = 0 := rfl
theorem rows_window1 (k : Fin n) (b : Fin B) : (rowScatterDims G B n wf).window (ix2 k b) 1 = b.val := rfl

/-- Entry `(g, b)` of the scattered-into matrix: its own element plus column `b` of the update rows whose index word is `g`. -/
theorem scatterAdd_rows_apply {φ : FTy} (x : FVec Ideal ⟨2, ![G, B]⟩ φ) (idx : IVec ⟨2, ![n, 1]⟩ w) (upd : FVec Ideal ⟨2, ![n, B]⟩ φ)
    (g : Fin G) (b : Fin B) :
    Host.scatterAdd (F := Ideal) (rowScatterDims G B n wf) x idx upd (ix2 g b)
      = x (ix2 g b) + ∑ k ∈ Finset.univ.filter (fun k : Fin n => (idx (ix2 k 0)).toInt = (g.val : ℤ)), upd (ix2 k b) := by
  show Ideal.hostScatterAdd (rowScatterDims G B n wf) x idx upd (ix2 g b) = _
  unfold Ideal.hostScatterAdd
  congr 1
  rw [Finset.sum_filter, Finset.sum_filter, sum_idx2]
  refine Finset.sum_congr rfl fun k _ => ?_
  have hl : ∀ b' : Fin B, (rowScatterDims G B n wf).resultIdx? (ix2 k b') idx = some (ix2 g b)
      ↔ (idx (ix2 k 0)).toInt = (g.val : ℤ) ∧ b' = b := fun b' => by
    rw [landsAt_iff]
    constructor
    · intro h
      have h0 := h 0
      have h1 := h 1
      rw [rows_start0, rows_window0] at h0
      rw [rows_start1, rows_window1] at h1
      simp only [Nat.cast_zero, add_zero] at h0
      simp only [zero_add] at h1
      refine ⟨h0, Fin.ext ?_⟩
      have h1' : ((b'.val : ℤ)) = (b.val : ℤ) := h1
      exact_mod_cast h1'
    · rintro ⟨h0, rfl⟩ a
      match a with
      | ⟨0, _⟩ => show (rowScatterDims G B n wf).start (ix2 k b') idx 0 + ((rowScatterDims G B n wf).window (ix2 k b') 0 : ℤ) = _
                  rw [rows_start0, rows_window0]; simp only [Nat.cast_zero, add_zero]; exact h0
      | ⟨1, _⟩ => show (rowScatterDims G B n wf).start (ix2 k b') idx 1 + ((rowScatterDims G B n wf).window (ix2 k b') 1 : ℤ) = _
                  rw [rows_start1, rows_window1]; simp only [zero_add]
  by_cases hk : (idx (ix2 k 0)).toInt = (g.val : ℤ)
  · rw [if_pos hk]
    rw [Finset.sum_eq_single b]
    · rw [if_pos ((hl b).2 ⟨hk, rfl⟩)]
    · intro b' _ hb'
      rw [if_neg (fun h => hb' ((hl b').1 h).2)]
    · intro h; exact absurd (Finset.mem_univ b) h
  · rw [if_neg hk]
    refine Finset.sum_eq_zero fun b' _ => ?_
    rw [if_neg (fun h => hk ((hl b').1 h).1)]

end Rows

/-! ## Gathers: the operand where the clamped start index says -/

/-- A start index read signed and clamped into `[0, N − 1]`: the position a gather reads on an axis of extent `N`
    whose slice has one element. -/
def clampIdx (N : Nat) (hN : 0 < N) {w : Nat} (v : BitVec w) : Fin N := ⟨min v.toInt.toNat (N - 1), by omega⟩

/-- A word that is a position, read signed, lands on `f` exactly when its clamp is `f`. -/
theorem toInt_eq_iff_clampIdx {N : Nat} (hN : 0 < N) {w : Nat} (v : BitVec w) (h0 : 0 ≤ v.toInt) (h1 : v.toInt < N) (f : Fin N) :
    v.toInt = (f.val : ℤ) ↔ clampIdx N hN v = f := by
  unfold clampIdx
  constructor
  · intro h; apply Fin.ext; show min v.toInt.toNat (N - 1) = f.val; omega
  · intro h; have := congrArg Fin.val h; have e : min v.toInt.toNat (N - 1) = f.val := this; omega

/-- jnp's wrap of a negative index (`select (i < 0) (i + N) i`) leaves a non-negative word alone. -/
theorem wrap_of_nonneg (v N : BitVec 32) (h0 : 0 ≤ v.toInt) :
    Scalar.select (IntOp.cmpi .slt v 0#32) (IntOp.addi v N) v = v := by
  have hc : IntOp.cmpi .slt v 0#32 = 0#1 := by
    unfold IntOp.cmpi
    have : v.slt 0#32 = false := by
      simp only [BitVec.slt, BitVec.toInt_zero, decide_eq_false_iff_not, not_lt]; exact h0
    rw [this]; rfl
  rw [hc]; rfl

section GatherVec
variable {α : Type} {N n w : Nat}

/-- `table[idx]` over a vector: operand `[N]`, start indices `[n, 1]`, result `[n]`. -/
abbrev vecGatherDims (N n : Nat) (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

theorem gather_vec_apply (hN : 0 < N) (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (k : Fin n) :
    Host.gather (vecGatherDims N n wf) x idx (ix1 k) = x (ix1 (clampIdx N hN (idx (ix2 k 0)))) := by
  unfold Host.gather
  congr 1
  funext a
  obtain rfl : a = 0 := Subsingleton.elim _ _
  refine Fin.ext ?_
  show (vecGatherDims N n wf).start (ix1 k) idx 0 + (vecGatherDims N n wf).batchCoord (ix1 k) 0 + (vecGatherDims N n wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N n wf).startIndexMap from List.mem_singleton.mpr rfl)]
  have hsi : (vecGatherDims N n wf).siIdx (ix1 k) ⟨List.idxOf (0 : Fin 1) (vecGatherDims N n wf).startIndexMap,
      List.idxOf_lt_length_iff.2 (List.mem_singleton.mpr rfl)⟩ = ix2 k 0 := by
    funext b; refine Fin.ext ?_
    match b with
    | ⟨0, _⟩ => rfl
    | ⟨1, _⟩ => rfl
  rw [hsi]
  rfl

end GatherVec

section GatherCols
variable {α : Type} {B N n w : Nat}

/-- `x[:, idx]` over a matrix: operand `[B, N]`, start indices `[n, 1]`, result `[B, n]`: whole columns. -/
abbrev colGatherDims (B N n : Nat) (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

theorem gather_cols_apply (hN : 0 < N) (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (k : Fin n) :
    Host.gather (colGatherDims B N n wf) x idx (ix2 b k) = x (ix2 b (clampIdx N hN (idx (ix2 k 0)))) := by
  unfold Host.gather
  congr 1
  funext a
  refine Fin.ext ?_
  match a with
  | ⟨0, _⟩ =>
    show (colGatherDims B N n wf).start (ix2 b k) idx 0 + (colGatherDims B N n wf).batchCoord (ix2 b k) 0 + (colGatherDims B N n wf).offCoord (ix2 b k) 0 = b.val
    rw [GatherDims.batchCoord_eq_zero _ _ _ List.not_mem_nil]
    have hs : (colGatherDims B N n wf).start (ix2 b k) idx 0 = 0 := by
      unfold GatherDims.start
      rw [dif_neg (show (0 : Fin 2) ∉ ([1] : List (Fin 2)) by decide)]
    rw [hs]
    show 0 + 0 + (colGatherDims B N n wf).offCoord (ix2 b k) 0 = b.val
    have ho : (colGatherDims B N n wf).offCoord (ix2 b k) 0 = b.val := rfl
    rw [ho]; omega
  | ⟨1, _⟩ =>
    show (colGatherDims B N n wf).start (ix2 b k) idx 1 + (colGatherDims B N n wf).batchCoord (ix2 b k) 1 + (colGatherDims B N n wf).offCoord (ix2 b k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims B N n wf).startIndexMap from List.mem_singleton.mpr rfl)]
    have hsi : (colGatherDims B N n wf).siIdx (ix2 b k) ⟨List.idxOf (1 : Fin 2) (colGatherDims B N n wf).startIndexMap,
        List.idxOf_lt_length_iff.2 (List.mem_singleton.mpr rfl)⟩ = ix2 k 0 := by
      funext c; refine Fin.ext ?_
      match c with
      | ⟨0, _⟩ => rfl
      | ⟨1, _⟩ => rfl
    rw [hsi]
    rfl

end GatherCols

section GatherCol0
variable {α : Type} {N n w : Nat}

/-- `table[idx, 0]` over a one-column matrix: operand `[N, 1]`, start indices `[n, 2]` (a row word and a column
    word), result `[n]`; the column word, whatever it is, clamps to the one column. -/
abbrev col0GatherDims (N n : Nat) (wf : GatherDims.WF ⟨2, ![N, 1]⟩ ⟨2, ![n, 2]⟩ ⟨1, ![n]⟩ [] [0, 1] [] [0, 1] [] 1 ![1, 1]) :
    GatherDims ⟨2, ![N, 1]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

theorem gather_col0_apply (hN : 0 < N) (wf : GatherDims.WF ⟨2, ![N, 1]⟩ ⟨2, ![n, 2]⟩ ⟨1, ![n]⟩ [] [0, 1] [] [0, 1] [] 1 ![1, 1])
    (x : (⟨2, ![N, 1]⟩ : Shape).Idx → α) (idx : IVec ⟨2, ![n, 2]⟩ w) (k : Fin n) :
    Host.gather (col0GatherDims N n wf) x idx (ix1 k) = x (ix2 (clampIdx N hN (idx (ix2 k 0))) 0) := by
  unfold Host.gather
  congr 1
  funext a
  refine Fin.ext ?_
  match a with
  | ⟨0, _⟩ =>
    show (col0GatherDims N n wf).start (ix1 k) idx 0 + (col0GatherDims N n wf).batchCoord (ix1 k) 0 + (col0GatherDims N n wf).offCoord (ix1 k) 0 = _
    rw [GatherDims.batchCoord_eq_zero _ _ _ List.not_mem_nil,
      GatherDims.offCoord_eq_zero _ _ _ (fun h => ((GatherDims.mem_sKept _ _).mp h).1 (List.mem_cons_self))]
    simp only [Nat.add_zero]
    unfold GatherDims.start
    rw [dif_pos (show (0 : Fin 2) ∈ (col0GatherDims N n wf).startIndexMap from List.mem_cons_self)]
    have hsi : (col0GatherDims N n wf).siIdx (ix1 k) ⟨List.idxOf (0 : Fin 2) (col0GatherDims N n wf).startIndexMap,
        List.idxOf_lt_length_iff.2 (List.mem_cons_self)⟩ = ix2 k 0 := by
      funext c; refine Fin.ext ?_
      match c with
      | ⟨0, _⟩ => rfl
      | ⟨1, _⟩ => rfl
    rw [hsi]
    rfl
  | ⟨1, _⟩ =>
    have h1 := (col0GatherDims N n wf).lt (ix1 k) idx 1
    have e : (⟨2, ![N, 1]⟩ : Shape).size 1 = 1 := rfl
    show (col0GatherDims N n wf).start (ix1 k) idx 1 + (col0GatherDims N n wf).batchCoord (ix1 k) 1 + (col0GatherDims N n wf).offCoord (ix1 k) 1 = 0
    omega

end GatherCol0

end Idealize.ShloMosaic.IndexedOps

end
-- ==== Proof.Table.lean ====
/-
  The table the two programs share, and what each makes of it.

  Entry `k` of the 5115-entry table names a feature (a column of the 8192 × 4096 input) by its index word and a group
  (one of 1024) by its segment word; `feat` and `grp` read the two words as positions, signed and clamped into range
  as a gather reads them. The reference's result for one row is `byGroups`: group by group, the sum of the group's
  weighted features, scaled by the group's two factors, summed over the groups. The kernel's is `byFeatures`: the
  row's inner product with `weight`, the per-feature fold of the table. When every float is a real number the two
  are equal (`byGroups_eq_byFeatures`): both are the sum over the table's entries.
-/
import proofs.«411112_j39685497815127_3_alg».proof.Proof.TableSum
import proofs.«411112_j39685497815127_3_alg».proof.Proof.LibIndexedOps

noncomputable section

open scoped BigOperators

namespace Cert.Table

open Idealize.ShloMosaic Idealize.ShloMosaic.ValueIdx Idealize.ShloMosaic.IndexedOps

abbrev V5115 : Shape := ⟨1, ![5115]⟩
abbrev V1024 : Shape := ⟨1, ![1024]⟩
abbrev M1024x1 : Shape := ⟨2, ![1024, 1]⟩

/-- The feature entry `k` names. -/
def feat (fi : IVec V5115 32) (k : Fin 5115) : Fin 4096 := clampIdx 4096 (by decide) (fi (ix1 k))
/-- The group entry `k` belongs to. -/
def grp (sg : IVec V5115 32) (k : Fin 5115) : Fin 1024 := clampIdx 1024 (by decide) (sg (ix1 k))

/-- Feature `f`'s folded weight: over the entries naming `f`, the entry's weight times its group's two factors,
    summed from zero. -/
def weight (fi sg : IVec V5115 32) (W : V5115.Idx → EReal) (Dg : V1024.Idx → EReal) (Dn : M1024x1.Idx → EReal) (f : Fin 4096) : EReal :=
  0 + ∑ k ∈ Finset.univ.filter (fun k : Fin 5115 => feat fi k = f), W (ix1 k) * (Dg (ix1 (grp sg k)) * Dn (ix2 (grp sg k) 0))

/-- One row, the reference's way: per group the weighted sum of its entries' features (from zero), times the group's
    two factors, summed over the groups. -/
def byGroups (fi sg : IVec V5115 32) (W : V5115.Idx → EReal) (Dg : V1024.Idx → EReal) (Dn : M1024x1.Idx → EReal) (X : Fin 4096 → EReal) : EReal :=
  ∑ g : Fin 1024, ((0 + ∑ k ∈ Finset.univ.filter (fun k : Fin 5115 => grp sg k = g), X (feat fi k) * W (ix1 k)) * Dg (ix1 g)) * Dn (ix2 g 0)

/-- One row, the kernel's way: the inner product with the folded weights. -/
def byFeatures (fi sg : IVec V5115 32) (W : V5115.Idx → EReal) (Dg : V1024.Idx → EReal) (Dn : M1024x1.Idx → EReal) (X : Fin 4096 → EReal) : EReal :=
  ∑ f : Fin 4096, X f * weight fi sg W Dg Dn f

/-- Over real numbers the two are the one sum over the table's entries. -/
theorem byGroups_eq_byFeatures (fi sg : IVec V5115 32) (W : V5115.Idx → EReal) (Dg : V1024.Idx → EReal) (Dn : M1024x1.Idx → EReal)
    (X : Fin 4096 → EReal) (hW : ∀ i, ∃ r : ℝ, W i = (r : EReal)) (hDg : ∀ i, ∃ r : ℝ, Dg i = (r : EReal))
    (hDn : ∀ i, ∃ r : ℝ, Dn i = (r : EReal)) (hX : ∀ f, ∃ r : ℝ, X f = (r : EReal)) :
    byGroups fi sg W Dg Dn X = byFeatures fi sg W Dg Dn X := by
  choose Wr hWr using hW
  choose Dgr hDgr using hDg
  choose Dnr hDnr using hDn
  choose Xr hXr using hX
  unfold byGroups byFeatures weight
  simp only [hWr, hDgr, hDnr, hXr]
  rw [Cert.TableSum.by_groups (feat fi) (grp sg) Xr (fun k => Wr (ix1 k)) (fun g => Dgr (ix1 g)) (fun g => Dnr (ix2 g 0)),
    Cert.TableSum.by_features (feat fi) (grp sg) Xr (fun k => Wr (ix1 k)) (fun g => Dgr (ix1 g)) (fun g => Dnr (ix2 g 0))]

end Cert.Table

end
-- ==== Proof.RefValue.lean ====
/-
  The reference's result, one row at a time, is the table's group-by-group sum.

  Row `b` of the reference's result is the matrix product's sum over the 1024 groups `g` of (the segment sum's entry
  `(g, b)`, times the group's first factor) times the group's second factor. The segment sum's entry `(g, b)` is zero plus
  the sum, over the table entries `k` whose segment word is `g`, of the gathered column entry `x[b, feature of k]` times the
  entry's weight. Under the index ranges the feature word is left alone by the wrap of negative indices, a segment
  word that is a position lands on `g` exactly when its clamp is `g`, and the gather reads the column the clamp names.
-/
import proofs.«411112_j39685497815127_3_alg».proof.Proof.Gen.ReferenceIdeal.Read
import proofs.«411112_j39685497815127_3_alg».proof.Proof.Table

noncomputable section

open scoped BigOperators

namespace Cert.ReferenceIdeal.RefValue

open Cert.ReferenceIdeal Cert.ReferenceIdeal.Gen Cert.ReferenceIdeal.Read Idealize.ShloMosaic
open Idealize.ShloMosaic.ValueIdx Idealize.ShloMosaic.IndexedOps

variable (x0 : S8192x4096.Idx → EReal) (x1 x2 : IVec S5115 32) (x3 : S5115.Idx → EReal) (x4 : S1024.Idx → EReal) (x5 : S1024x1.Idx → EReal)

/-- The wrapped feature word of entry `k` is the word itself when it is non-negative. -/
theorem wrapped_word (k : Fin 5115) (h0 : 0 ≤ (x1 (ix1 k)).toInt) :
    val_main_v5 (F := Ideal) x1 (ix2 k 0) = x1 (ix1 k) := by
  rw [val_main_v5_apply]
  have e : idx_main_v5 (ix2 k (0 : Fin 1)) = ix1 k := funext fun a => Fin.ext (by match a with | ⟨0, _⟩ => rfl)
  rw [e, val_main_v4_apply, val_main_v1_apply, val_main_v3_apply, val_main_v0_apply, val_main_v2_apply, val_main_c_apply, val_main_c_0_apply]
  exact wrap_of_nonneg _ _ h0

/-- The gathered entry `(b, k)`: column `feat k` of row `b`. -/
theorem gathered_apply (b : Fin 8192) (k : Fin 5115) (h0 : 0 ≤ (x1 (ix1 k)).toInt) :
    val_main_v6 (F := Ideal) x0 x1 (ix2 b k) = x0 (ix2 b (Cert.Table.feat x1 k)) := by
  unfold val_main_v6
  show Host.gather (colGatherDims 8192 4096 5115 Facts₀.gather_S8192x4096_S5115x1_S8192x5115_0_1_n_n_1_1_81921_wf) x0 (val_main_v5 (F := Ideal) x1) (ix2 b k) = _
  rw [gather_cols_apply (by decide), wrapped_word x1 k h0]
  rfl

/-- The scattered updates' entry `(k, b)`: the gathered entry times the entry's weight. -/
theorem update_apply (b : Fin 8192) (k : Fin 5115) (h0 : 0 ≤ (x1 (ix1 k)).toInt) :
    val_main_v10 (F := Ideal) x0 x1 x3 (ix2 k b) = x0 (ix2 b (Cert.Table.feat x1 k)) * x3 (ix1 k) := by
  rw [val_main_v10_apply]
  have e : idx_main_v10 (ix2 k b) = ix2 b k := funext fun a => Fin.ext (by match a with | ⟨0, _⟩ => rfl | ⟨1, _⟩ => rfl)
  rw [e, val_main_v9_apply, gathered_apply x0 x1 b k h0, val_main_v8_apply, val_main_v7_apply]
  have e' : idx_main_v7 (idx_main_v8 (ix2 b k)) = ix1 k := funext fun a => Fin.ext (by match a with | ⟨0, _⟩ => rfl)
  rw [e']
  rfl

/-- The segment sum's entry `(g, b)`: zero plus the group's weighted features. -/
theorem segsum_apply (hfi : ∀ i, 0 ≤ (x1 i).toInt ∧ (x1 i).toInt < 4096) (hsg : ∀ i, 0 ≤ (x2 i).toInt ∧ (x2 i).toInt < 1024)
    (g : Fin 1024) (b : Fin 8192) :
    val_main_v13 (F := Ideal) x0 x1 x2 x3 (ix2 g b)
      = 0 + ∑ k ∈ Finset.univ.filter (fun k : Fin 5115 => Cert.Table.grp x2 k = g), x0 (ix2 b (Cert.Table.feat x1 k)) * x3 (ix1 k) := by
  unfold val_main_v13
  show Host.scatterAdd (F := Ideal) (rowScatterDims 1024 8192 5115 Facts₀.scatter_S1024x8192_S5115x1_S5115x8192_1_0_0_1_wf)
    (val_main_v11 (F := Ideal)) (val_main_v12 (F := Ideal) x2) (val_main_v10 (F := Ideal) x0 x1 x3) (ix2 g b) = _
  rw [scatterAdd_rows_apply, val_main_v11_apply, val_main_cst_apply]
  congr 1
  · exact Ideal.ofBits_zero_f32
  · have hw : ∀ k : Fin 5115, val_main_v12 (F := Ideal) x2 (ix2 k 0) = x2 (ix1 k) := fun k => by
      rw [val_main_v12_apply]
      exact congrArg x2 (funext fun a => Fin.ext (by match a with | ⟨0, _⟩ => rfl))
    have hf : (Finset.univ.filter (fun k : Fin 5115 => (val_main_v12 (F := Ideal) x2 (ix2 k 0)).toInt = (g.val : ℤ)))
        = Finset.univ.filter (fun k : Fin 5115 => Cert.Table.grp x2 k = g) := by
      refine Finset.filter_congr fun k _ => ?_
      rw [hw k]
      exact toInt_eq_iff_clampIdx (by decide) _ (hsg _).1 (hsg _).2 g
    rw [hf]
    exact Finset.sum_congr rfl fun k _ => update_apply x0 x1 x3 b k (hfi _).1

/-- Row `b` of the reference's result is the table's group-by-group sum over row `b` of the input. -/
theorem result_apply (hfi : ∀ i, 0 ≤ (x1 i).toInt ∧ (x1 i).toInt < 4096) (hsg : ∀ i, 0 ≤ (x2 i).toInt ∧ (x2 i).toInt < 1024)
    (b : Fin 8192) :
    val_main_v18 (F := Ideal) x0 x1 x2 x3 x4 x5 (ix2 b 0) = Cert.Table.byGroups x1 x2 x3 x4 x5 (fun f => x0 (ix2 b f)) := by
  rw [val_main_v18_apply]
  unfold Cert.Table.byGroups
  refine Finset.sum_congr rfl fun g _ => ?_
  have el : lidx_main_v18 (ix2 b (0 : Fin 1)) g = ix2 b g := funext fun a => Fin.ext (by match a with | ⟨0, _⟩ => rfl | ⟨1, _⟩ => rfl)
  have er : ridx_main_v18 (ix2 b (0 : Fin 1)) g = ix2 g 0 := funext fun a => Fin.ext (by match a with | ⟨0, _⟩ => rfl | ⟨1, _⟩ => rfl)
  rw [el, er, val_main_v17_apply, val_main_v14_apply, val_main_v16_apply, val_main_v15_apply]
  have e14 : idx_main_v14 (ix2 b g) = ix2 g b := funext fun a => Fin.ext (by match a with | ⟨0, _⟩ => rfl | ⟨1, _⟩ => rfl)
  have e16 : idx_main_v15 (idx_main_v16 (ix2 b g)) = ix1 g := funext fun a => Fin.ext (by match a with | ⟨0, _⟩ => rfl)
  rw [e14, e16, segsum_apply x0 x1 x2 x3 hfi hsg g b]
  rfl

end Cert.ReferenceIdeal.RefValue

end
-- ==== Proof.KernelBody.lean ====
/-
  What the kernel body leaves in its output block.

  The body loads eight chunks of 512 lanes of its 1024 × 4096 input block and of the 1 × 4096 weight row, keeps a
  1024 × 512 running sum that starts at zero and takes in, chunk after chunk, the chunk's entries times the weight row's
  entries broadcast down the rows, then sums the running sum along its 512 lanes and stores the 1024 sums as a column.
  So entry (r, 0) of the block it leaves is the sum over the lanes j of
  ((((0 + x[r, j] · v[j]) + x[r, 512 + j] · v[512 + j]) + …) + x[r, 3584 + j] · v[3584 + j]).
-/
import proofs.«411112_j39685497815127_3_alg».proof.Proof.Gen.KernelIdeal.Frame
import proofs.«411112_j39685497815127_3_alg».proof.Proof.TableSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Body

open Cert.KernelIdeal Cert.KernelIdeal.Gen Idealize.ShloMosaic Idealize.ShloMosaic.TcCoe Idealize.ShloMosaic.Tactic Idealize.SL.Sem
open Idealize.ShloMosaic.ValueIdx Cert.TableSum

theorem zero_offsets : (![0, 0] : Fin 2 → Nat) = fun _ => 0 := funext fun a => by fin_cases a <;> rfl

/-- The lane sum's source index over row `r` at lane `j`. -/
theorem lift_row (r : Fin 1024) (j : Fin (S1024x512.size 1)) :
    (reduces_S1024x512_S1024 : S1024x512.Reduces [1] S1024).lift (ix1 r) j = ix2 r j :=
  funext fun a => Fin.ext (by
    rw [Shape.Reduces.lift_val]
    match a with
    | ⟨0, _⟩ => simp [Shape.Reduces.liftVal]
    | ⟨1, _⟩ => simp [Shape.Reduces.liftVal])

/-- A weight chunk broadcast down the rows reads, at (r, j), the chunk's lane j. -/
theorem row_bcast (v : Vec Ideal S1x512 .f32) (r : Fin 1024) (j : Fin (S1024x512.size 1)) :
    broadcastTo S1024x512 (shapeCast S1x512 v shapeCasts_S1x512_S1x512) broadcasts_S1x512_S1024x512 (ix2 r j) = v (ix2 (0 : Fin 1) j) := by
  rw [shapeCast_self]
  exact broadcastTo_1b_ab_apply (a := 1024) (b := 512) v broadcasts_S1x512_S1024x512 r j

set_option backward.isDefEq.respectTransparency.types false in
/-- The body's arithmetic at (r, 0): the lane-by-lane running sum over the eight chunks, summed over the lanes. -/
theorem pay_apply (v4 v14 v24 v34 v44 v54 v64 v74 : Vec Ideal S1024x512 .f32) (v6 v16 v26 v36 v46 v56 v66 v76 : Vec Ideal S1x512 .f32) (r : Fin 1024) :
    k0_pay2 (F := Ideal) (k0_pay1 (F := Ideal) v4 v6 v14 v16 v24 v26 v34 v36) v44 v46 v54 v56 v64 v66 v74 v76 (ix2 r (0 : Fin 1))
      = ∑ j : Fin 512, ((((((((0 + v4 (ix2 r j) * v6 (ix2 (0 : Fin 1) j)) + v14 (ix2 r j) * v16 (ix2 (0 : Fin 1) j)) + v24 (ix2 r j) * v26 (ix2 (0 : Fin 1) j)) + v34 (ix2 r j) * v36 (ix2 (0 : Fin 1) j)) + v44 (ix2 r j) * v46 (ix2 (0 : Fin 1) j)) + v54 (ix2 r j) * v56 (ix2 (0 : Fin 1) j)) + v64 (ix2 r j) * v66 (ix2 (0 : Fin 1) j)) + v74 (ix2 r j) * v76 (ix2 (0 : Fin 1) j)) := by
  unfold k0_pay2 k0_pay1
  dsimp only
  refine (shapeCast_apply _ shapeCasts_S1024_S1024x1 (ix2 r (0 : Fin 1)) (ix1 r) ?_).trans ?_
  · rw [Shape.rowMajor_val_one, Shape.rowMajor_val_two]
    show r.val = r.val * 1 + 0
    omega
  refine (Ideal.multiReduction_add_single _ 0x00000000#32 reduces_S1024x512_S1024 (.inl rfl) rfl (ix1 r)).trans ?_
  refine Finset.sum_congr rfl fun j _ => ?_
  rw [lift_row r j]
  simp only [addf_apply, mulf_apply, broadcast_apply]
  erw [row_bcast v6 r j, row_bcast v16 r j, row_bcast v26 r j, row_bcast v36 r j, row_bcast v46 r j, row_bcast v56 r j,
    row_bcast v66 r j, row_bcast v76 r j]
  first
    | rfl
    | (rw [show (Scalar.ofBits .f32 0x00000000#32 : Ideal .f32) = 0 from Ideal.ofBits_zero_f32]; rfl)

/-- A chunk of the input block: lanes `512 c … 512 c + 511` of every row. -/
theorem ld_rows (x0 : S1024x4096.Idx → Elt Ideal .f32) (o : Nat) (inb : ∀ a, (![0, o] : Fin 2 → Nat) a + (![1024, 512] : Fin 2 → Nat) a ≤ S1024x4096.size a)
    (c : Fin 8) (ho : o = 512 * c.val) (r : Fin 1024) (j : Fin 512) :
    View.ld (Val := Elt Ideal) (e' := .f32) x0 (Rect.unit (s := S1024x4096) ![0, o] ![1024, 512] inb) (ix2 r j) = x0 (ix2 r (lane c j)) := by
  subst ho
  show x0 _ = x0 _
  congr 1
  funext a
  apply Fin.ext
  match a with
  | ⟨0, _⟩ => show 0 + 1 * r.val = r.val; omega
  | ⟨1, _⟩ => show 512 * c.val + 1 * j.val = 512 * c.val + j.val; omega

/-- A chunk of the weight row. -/
theorem ld_row (x1 : S1x4096.Idx → Elt Ideal .f32) (o : Nat) (inb : ∀ a, (![0, o] : Fin 2 → Nat) a + (![1, 512] : Fin 2 → Nat) a ≤ S1x4096.size a)
    (c : Fin 8) (ho : o = 512 * c.val) (j : Fin 512) :
    View.ld (Val := Elt Ideal) (e' := .f32) x1 (Rect.unit (s := S1x4096) ![0, o] ![1, 512] inb) (ix2 (0 : Fin 1) j) = x1 (ix2 (0 : Fin 1) (lane c j)) := by
  subst ho
  show x1 _ = x1 _
  congr 1
  funext a
  apply Fin.ext
  match a with
  | ⟨0, _⟩ => show 0 + 1 * 0 = 0; omega
  | ⟨1, _⟩ => show 512 * c.val + 1 * j.val = 512 * c.val + j.val; omega

/-- Entry (r, 0) of the block the body leaves, over the contents of its two input blocks. -/
theorem out_apply (c : Dev nD) (i : grid0.Coords) (arg1 : Memref sig .tc .vmem S1024x4096 .f32) (harg1 : arg1.IsWhole)
    (arg2 : Memref sig .tc .vmem S1x4096 .f32) (harg2 : arg2.IsWhole) (arg3 : Memref sig .tc .vmem S1024x1 .f32) (harg3 : arg3.IsWhole)
    (x0 : Vec Ideal S1024x4096 .f32) (x1 : Vec Ideal S1x4096 .f32) (r : Fin 1024) :
    out0_A_2 (F := Ideal) c i arg1 harg1 arg2 harg2 arg3 harg3 x0 x1 (ix2 r (0 : Fin 1))
      = ∑ j : Fin 512, ((((((((0 + x0 (ix2 r (lane 0 j)) * x1 (ix2 (0 : Fin 1) (lane 0 j))) + x0 (ix2 r (lane 1 j)) * x1 (ix2 (0 : Fin 1) (lane 1 j))) + x0 (ix2 r (lane 2 j)) * x1 (ix2 (0 : Fin 1) (lane 2 j))) + x0 (ix2 r (lane 3 j)) * x1 (ix2 (0 : Fin 1) (lane 3 j))) + x0 (ix2 r (lane 4 j)) * x1 (ix2 (0 : Fin 1) (lane 4 j))) + x0 (ix2 r (lane 5 j)) * x1 (ix2 (0 : Fin 1) (lane 5 j))) + x0 (ix2 r (lane 6 j)) * x1 (ix2 (0 : Fin 1) (lane 6 j))) + x0 (ix2 r (lane 7 j)) * x1 (ix2 (0 : Fin 1) (lane 7 j))) := by
  unfold out0_A_2
  rw [View.read_writes_eq_canon _ _ _ (cover0_A_2 c i arg1 harg1 arg2 harg2 arg3 harg3 x0 x1)]
  unfold kernelRun0_A
  dsimp only
  sl_unfold_words
  rw [View.canon_unit_zero zero_offsets]
  simp only [View.readAt_eq_ld, harg1.read_unread, harg2.read_unread]
  refine (pay_apply _ _ _ _ _ _ _ _ _ _ _ _ _ _ _ _ r).trans ?_
  refine Finset.sum_congr rfl fun j _ => ?_
  erw [ld_rows x0 0 _ 0 (by decide) r j, ld_row x1 0 _ 0 (by decide) j,
    ld_rows x0 512 _ 1 (by decide) r j, ld_row x1 512 _ 1 (by decide) j,
    ld_rows x0 1024 _ 2 (by decide) r j, ld_row x1 1024 _ 2 (by decide) j,
    ld_rows x0 1536 _ 3 (by decide) r j, ld_row x1 1536 _ 3 (by decide) j,
    ld_rows x0 2048 _ 4 (by decide) r j, ld_row x1 2048 _ 4 (by decide) j,
    ld_rows x0 2560 _ 5 (by decide) r j, ld_row x1 2560 _ 5 (by decide) j,
    ld_rows x0 3072 _ 6 (by decide) r j, ld_row x1 3072 _ 6 (by decide) j,
    ld_rows x0 3584 _ 7 (by decide) r j, ld_row x1 3584 _ 7 (by decide) j]

end Cert.KernelIdeal.Body

end
-- ==== Proof.KernelArray.lean ====
/-
  The kernel's result array, whole.

  The grid has eight points; point t stages rows 1024 t … 1024 t + 1023 of the input (all 4096 columns), the whole
  1 × 4096 weight row, and writes back rows 1024 t … 1024 t + 1023 of the 8192 × 1 result. What the body leaves at (r, 0)
  of its block is the running sum over eight chunks, lane by lane, summed over the lanes: the same terms as the sum
  over all 4096 features of input-row entry times weight. So the block point t writes back is block t of ONE function
  of the arrays the region finds, `rowDot`: each row's inner product with the weight row. The eight blocks tile the
  result array, which therefore ends holding `rowDot`.
-/
import proofs.«411112_j39685497815127_3_alg».proof.Proof.Gen.KernelIdeal.Value
import proofs.«411112_j39685497815127_3_alg».proof.Proof.KernelBody

set_option maxRecDepth 16384

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.TableSum

variable (m : (ℓ : Loc nD τ sig) → Buf (Elt Ideal) ℓ) (ρ : Dev nD → PrngReg)

/-- Each row's inner product with the weight row. -/
def rowDot (X : S8192x4096.Idx → EReal) (Vw : S1x4096.Idx → EReal) : S8192x1.Idx → EReal :=
  fun i => ∑ f : Fin 4096, X (ix2 (⟨(i 0).val, idx2_lt0 i⟩ : Fin 8192) f) * Vw (ix2 (0 : Fin 1) f)

/-- The printed index maps over the eight points: the input's row block moves with the result's, its column block and
    both of the weight row's stay at 0, and the result's row block index is at most 7. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the result is some point's. -/
theorem idx_onto : ∀ q : Fin 8, ∃ t : Fin cfg0.N, win0_2.index t = ![q.val, 0] :=
  (by decide +kernel : ∀ q : Fin 8, ∃ t : Fin grid0.N, win0_2.index t = ![q.val, 0])

/-- The arrays the region finds, and the blocks point `t` stages, at their literal types. -/
abbrev xarr (c : Dev nD) : S8192x4096.Idx → EReal := V m c main_arg0
abbrev varr (c : Dev nD) : S1x4096.Idx → EReal := V m c main_call0_v28
abbrev xblk (c : Dev nD) (t : Fin cfg0.N) : Vec Ideal S1024x4096 .f32 := iblk m c 0 t
abbrev vblk (c : Dev nD) (t : Fin cfg0.N) : Vec Ideal S1x4096 .f32 := iblk m c 1 t

/-- Row `r` of point `t`'s block is this row of the array. -/
def rowAt (t : Fin cfg0.N) (r : Fin 1024) : Fin 8192 :=
  ⟨win0_2.index t (0 : Fin 2) * 1024 + r.val, by have := (idx_facts t).2.2.2.2.2; omega⟩

/-- The staged input block is rows `1024 t …` of the input, all columns. -/
theorem xblk_apply (c : Dev nD) (t : Fin cfg0.N) (r : Fin 1024) (f : Fin 4096) :
    xblk m c t (ix2 r f) = xarr m c (ix2 (rowAt t r) f) := by
  obtain ⟨e0, e1, e2, e3, e4, e5⟩ := idx_facts t
  show V m c main_arg0 (((cfg0.win 0).blk t).view.emb (ix2 r f)) = V m c main_arg0 (ix2 (rowAt t r) f)
  refine congrArg (V m c main_arg0) (funext fun a => Fin.ext ?_)
  match a with
  | ⟨0, _⟩ => show win0_0.index t (0 : Fin 2) * 1024 + 1 * r.val = win0_2.index t (0 : Fin 2) * 1024 + r.val; omega
  | ⟨1, _⟩ => show win0_0.index t (1 : Fin 2) * 4096 + 1 * f.val = f.val; omega

/-- The staged weight row is the whole weight row. -/
theorem vblk_apply (c : Dev nD) (t : Fin cfg0.N) (f : Fin 4096) :
    vblk m c t (ix2 (0 : Fin 1) f) = varr m c (ix2 (0 : Fin 1) f) := by
  obtain ⟨e0, e1, e2, e3, e4, e5⟩ := idx_facts t
  show V m c main_call0_v28 (((cfg0.win 1).blk t).view.emb (ix2 (0 : Fin 1) f)) = V m c main_call0_v28 (ix2 (0 : Fin 1) f)
  refine congrArg (V m c main_call0_v28) (funext fun a => Fin.ext ?_)
  match a with
  | ⟨0, _⟩ => show win0_1.index t (0 : Fin 2) * 1 + 1 * 0 = 0; omega
  | ⟨1, _⟩ => show win0_1.index t (1 : Fin 2) * 4096 + 1 * f.val = f.val; omega

/-- What point `t` writes back is block `t` of `rowDot` of the arrays the region finds. -/
theorem flushed_eq (c : Dev nD) (t : Fin cfg0.N) :
    (dats m 0 c).flushed 2 t = ((cfg0.win 2).blk t).view.read (Elt Ideal) (rowDot (xarr m c) (varr m c)) := by
  rw [flushed2_A]
  funext y
  obtain ⟨r, q, rfl⟩ : ∃ (r : Fin 1024) (q : Fin 1), y = ix2 r q := ⟨y 0, y 1, eq_ix2 y⟩
  obtain rfl : q = 0 := Subsingleton.elim _ _
  show out0_A_2 (F := Ideal) c (grid0.coords t) (ms0_0 t) (hs0_0 t) (ms0_1 t) (hs0_1 t) (ms0_2 t) (hs0_2 t) (xblk m c t) (vblk m c t) (ix2 r (0 : Fin 1))
      = rowDot (xarr m c) (varr m c) (((cfg0.win 2).blk t).view.emb (ix2 r (0 : Fin 1)))
  refine (Body.out_apply c (grid0.coords t) (ms0_0 t) (hs0_0 t) (ms0_1 t) (hs0_1 t) (ms0_2 t) (hs0_2 t) (xblk m c t) (vblk m c t) r).trans ?_
  refine (sum_lanes (fun f => xblk m c t (ix2 r f) * vblk m c t (ix2 (0 : Fin 1) f))).trans ?_
  unfold rowDot
  refine Finset.sum_congr rfl fun f _ => ?_
  rw [xblk_apply, vblk_apply]
  refine congrArg (fun b : Fin 8192 => xarr m c (ix2 b f) * varr m c (ix2 (0 : Fin 1) f)) (Fin.ext ?_)
  show win0_2.index t (0 : Fin 2) * 1024 + r.val = win0_2.index t (0 : Fin 2) * 1024 + 1 * r.val
  omega

/-- An index of the result array is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- The eight blocks tile the result array. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- The result array after the run: each row's inner product with the weight row the region finds. -/
theorem final (c : Dev nD) : (dats m 0 c).arrAt 2 cfg0.N = rowDot (xarr m c) (varr m c) :=
  (dats m 0 c).arrAt_eq_of_cover 2 (rowDot (xarr m c) (varr m c)) (fun t _ => flushed_eq m c t) cover

/-- The kernel's run, with its result array named. -/
theorem run : θ_run defs (onTc (τ := τ) (main (F := Ideal))) ⟨m, fun _ => 0, ρ⟩ fun r => ∀ c : Dev nD,
      r.2.mem ((c : Thread nD τ).loc main_v0) = rowDot (xarr m c) (varr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.ArrayValue

end
-- ==== Proof.KernelHost.lean ====
/-
  What the host operations before the region leave in the weight vector the region stages.

  The table's 5115 entries each carry a feature word, a group word and a weight; each group carries two factors. The host
  operations wrap each index word by its axis extent (a negative word has the extent added: the identity on a word that
  is a position), gather the two factors of every entry's group (the gathers clamp their start words into the table),
  scale every entry's weight by them, and scatter the scaled weights, accumulating, into a vector of 4096 zeros at the
  entries' feature words; the vector is then given a leading unit axis. Read at `(0, f)`, the result is zero plus the sum,
  over the entries whose feature word is `f`, of the entry's weight times its group's two factors: `Cert.Table.weight`.

  `foldVec` is the operations' composed term over any five arrays, `foldVec_apply` reads it at a feature under the two
  range hypotheses on the index words, `staged_eq` says the staged array is its shape cast, and `weights_apply` is the
  two together.
-/
import proofs.«411112_j39685497815127_3_alg».proof.Proof.Gen.KernelIdeal.Frame
import proofs.«411112_j39685497815127_3_alg».proof.Proof.Table
import Idealize.ShloMosaic.Lib.StableHlo.Run
import Idealize.ShloMosaic.Lib.Pipeline.Value
import Idealize.ShloMosaic.Lib.ValueLayout
import Idealize.ShloMosaic.PureOps.Ideal.Laws
noncomputable section
namespace Cert.KernelIdeal.HostValue
open Cert.KernelIdeal Cert.KernelIdeal.Gen Idealize.ShloMosaic Idealize.ShloMosaic.TcCoe Idealize.SL.Sem
open Idealize.ShloMosaic.ValueIdx Idealize.ShloMosaic.IndexedOps

section Pure

/-- jnp's wrap of index words by the axis extent: a negative word has the extent added. -/
def wrapIdx (N : BitVec 32) (idx : IVec S5115 32) : IVec S5115 32 :=
  select (cmpi .slt idx (broadcastInDim S5115 ![] Facts₀.bcast_S_S5115 (constantI S_ 32 0#32)))
    (addi idx (broadcastInDim S5115 ![] Facts₀.bcast_S_S5115 (constantI S_ 32 N))) idx

/-- The column of start indices a gather or scatter takes: the wrapped words, one per row. -/
def idxCol (N : BitVec 32) (idx : IVec S5115 32) : IVec S5115x1 32 :=
  broadcastInDim S5115x1 ![0] Facts₀.bcast_S5115_S5115x1_0 (wrapIdx N idx)

/-- The column of zero words: the column coordinate of a one-column table. -/
def zeroCol : IVec S5115x1 32 :=
  broadcastInDim S5115x1 ![0] Facts₀.bcast_S5115_S5115x1_0 (id (broadcastInDim S5115 ![] Facts₀.bcast_S_S5115 (constantI S_ 32 0#32)))

/-- Each entry's weight times its group's two factors. -/
def scaleVec (sg : IVec S5115 32) (W : FVec Ideal S5115 .f32) (Dg : FVec Ideal S1024 .f32) (Dn : FVec Ideal S1024x1 .f32) : FVec Ideal S5115 .f32 :=
  mulf W (mulf
    (Host.gather gather_S1024_S5115x1_S5115_n_0_n_n_0_1_1 Dg (idxCol 1024#32 sg))
    (Host.gather gather_S1024x1_S5115x2_S5115_n_01_n_n_01_1_11 Dn
      (concatenate S5115x2 1 [⟨S5115x1, idxCol 1024#32 sg⟩, ⟨S5115x1, zeroCol⟩] Facts₀.concatenates_S5115x1_S5115x1_S5115x2_d1)))

/-- The folded weights as a vector: the scaled entries scattered, accumulating, into zeros at their feature words. -/
def foldVec (fi sg : IVec S5115 32) (W : FVec Ideal S5115 .f32) (Dg : FVec Ideal S1024 .f32) (Dn : FVec Ideal S1024x1 .f32) : FVec Ideal S4096 .f32 :=
  Host.scatterAdd (F := Ideal) scatter_S4096_S5115x1_S5115_n_0_0_1
    (broadcastInDim S4096 ![] Facts₀.bcast_S_S4096 (constant (F := Ideal) S_ .f32 0x00000000#32))
    (idxCol 4096#32 fi) (scaleVec sg W Dg Dn)

end Pure

section PureLemmas

/-- A wrapped non-negative word is the word. -/
theorem wrapIdx_apply (N : BitVec 32) (idx : IVec S5115 32) (i : S5115.Idx) (h0 : 0 ≤ (idx i).toInt) :
    wrapIdx N idx i = idx i :=
  wrap_of_nonneg (idx i) N h0

/-- Row `k` of the index column is entry `k`'s word, when that word is non-negative. -/
theorem idxCol_apply (N : BitVec 32) (idx : IVec S5115 32) (k : Fin 5115) (h0 : 0 ≤ (idx (ix1 k)).toInt) :
    idxCol N idx (ix2 k 0) = idx (ix1 k) := by
  unfold idxCol
  rw [broadcastInDim_apply ![0] Facts₀.bcast_S5115_S5115x1_0 (wrapIdx N idx) (ix2 k 0) (ix1 k) (fun a => by
    match a with
    | ⟨0, _⟩ => rfl)]
  exact wrapIdx_apply N idx _ h0

/-- Column 0 of the two index columns side by side is the first. -/
theorem pairCol_apply (sg : IVec S5115 32) (k : Fin 5115) :
    concatenate S5115x2 1 [⟨S5115x1, idxCol 1024#32 sg⟩, ⟨S5115x1, zeroCol⟩] Facts₀.concatenates_S5115x1_S5115x1_S5115x2_d1 (ix2 k 0)
      = idxCol 1024#32 sg (ix2 k 0) :=
  concatenate_pair_apply_left (t := S5115x2) (s₁ := S5115x1) (s₂ := S5115x1) (1 : Fin 2) (idxCol 1024#32 sg) zeroCol
    Facts₀.concatenates_S5115x1_S5115x1_S5115x2_d1 (ix2 k (0 : Fin 2)) rfl (ix2 k (0 : Fin 1))
    (fun b => by
      match b with
      | ⟨0, _⟩ => rfl
      | ⟨1, _⟩ => rfl)

/-- Entry `k` scaled: its weight times its group's two factors. -/
theorem scaleVec_apply (sg : IVec S5115 32) (W : FVec Ideal S5115 .f32) (Dg : FVec Ideal S1024 .f32) (Dn : FVec Ideal S1024x1 .f32)
    (k : Fin 5115) (h0 : 0 ≤ (sg (ix1 k)).toInt) :
    scaleVec sg W Dg Dn (ix1 k) = W (ix1 k) * (Dg (ix1 (Cert.Table.grp sg k)) * Dn (ix2 (Cert.Table.grp sg k) 0)) := by
  unfold scaleVec Cert.Table.grp
  rw [mulf_apply, mulf_apply]
  rw [show gather_S1024_S5115x1_S5115_n_0_n_n_0_1_1 = vecGatherDims 1024 5115 Facts₀.gather_S1024_S5115x1_S5115_n_0_n_n_0_1_1_wf from rfl,
    show gather_S1024x1_S5115x2_S5115_n_01_n_n_01_1_11 = col0GatherDims 1024 5115 Facts₀.gather_S1024x1_S5115x2_S5115_n_01_n_n_01_1_11_wf from rfl]
  rw [gather_vec_apply (show 0 < 1024 by decide), gather_col0_apply (show 0 < 1024 by decide), pairCol_apply, idxCol_apply _ _ _ h0]

/-- Entry `f` of the folded vector is feature `f`'s folded weight. -/
theorem foldVec_apply (fi sg : IVec S5115 32) (W : FVec Ideal S5115 .f32) (Dg : FVec Ideal S1024 .f32) (Dn : FVec Ideal S1024x1 .f32)
    (hfi : ∀ i, 0 ≤ (fi i).toInt ∧ (fi i).toInt < 4096) (hsg : ∀ i, 0 ≤ (sg i).toInt ∧ (sg i).toInt < 1024) (f : Fin 4096) :
    foldVec fi sg W Dg Dn (ix1 f) = Cert.Table.weight fi sg W Dg Dn f := by
  unfold foldVec Cert.Table.weight
  rw [show scatter_S4096_S5115x1_S5115_n_0_0_1 = vecScatterDims 4096 5115 Facts₀.scatter_S4096_S5115x1_S5115_n_0_0_1_wf from rfl,
    scatterAdd_vec_apply]
  congr 1
  · exact Ideal.ofBits_zero_f32
  · refine Finset.sum_congr (Finset.filter_congr fun k _ => ?_) fun k _ => ?_
    · rw [idxCol_apply _ _ _ (hfi (ix1 k)).1]
      exact toInt_eq_iff_clampIdx (by decide) (fi (ix1 k)) (hfi (ix1 k)).1 (hfi (ix1 k)).2 f
    · exact scaleVec_apply sg W Dg Dn k (hsg (ix1 k)).1

end PureLemmas

variable (m : (ℓ : Loc nD τ sig) → Buf (Elt Ideal) ℓ)

/-- The staged weight vector is the folded vector given a leading unit axis. -/
theorem staged_eq (c : Dev nD) :
    (V m c main_call0_v28 : S1x4096.Idx → EReal)
      = shapeCast S1x4096 (foldVec (m ((c : Thread nD τ).loc main_arg1)) (m ((c : Thread nD τ).loc main_arg2)) (m ((c : Thread nD τ).loc main_arg3))
          (m ((c : Thread nD τ).loc main_arg4)) (m ((c : Thread nD τ).loc main_arg5))) Facts₀.shapeCasts_S4096_S1x4096 := by
  dsimp only [Gen.V, Gen.hostOps0]
  open Idealize.ShloMosaic.StableHlo in after_results_simp
  rfl

/-- Entry (0, f) of the staged weight vector is feature f's folded weight. -/
theorem weights_apply (c : Dev nD)
    (hfi : ∀ i, 0 ≤ ((m ((c : Thread nD τ).loc main_arg1) : IVec S5115 32) i).toInt ∧ ((m ((c : Thread nD τ).loc main_arg1) : IVec S5115 32) i).toInt < 4096)
    (hsg : ∀ i, 0 ≤ ((m ((c : Thread nD τ).loc main_arg2) : IVec S5115 32) i).toInt ∧ ((m ((c : Thread nD τ).loc main_arg2) : IVec S5115 32) i).toInt < 1024)
    (f : Fin 4096) :
    (V m c main_call0_v28 : S1x4096.Idx → EReal) (ix2 0 f)
      = Cert.Table.weight (m ((c : Thread nD τ).loc main_arg1)) (m ((c : Thread nD τ).loc main_arg2)) (m ((c : Thread nD τ).loc main_arg3))
          (m ((c : Thread nD τ).loc main_arg4)) (m ((c : Thread nD τ).loc main_arg5)) f := by
  rw [staged_eq m c, shapeCast_a_1a_apply]
  exact foldVec_apply _ _ _ _ _ hfi hsg f

end Cert.KernelIdeal.HostValue
end
-- ==== Proof.Bridge.lean ====
/-
  The two results are one array.

  Under the precondition every float argument is a real number and every table word is a position in its range. The
  reference's row b is then the table's group-by-group sum over row b of the input; the kernel's row b is the inner
  product of row b with the staged weight row, whose entry f is the table's folded weight of feature f: the
  feature-by-feature sum. Over real numbers the two sums are equal, so the two result arrays agree at every index.
-/
import proofs.«411112_j39685497815127_3_alg».proof.Proof.PreFacts
import proofs.«411112_j39685497815127_3_alg».proof.Proof.RefValue
import proofs.«411112_j39685497815127_3_alg».proof.Proof.KernelArray
import proofs.«411112_j39685497815127_3_alg».proof.Proof.KernelHost

noncomputable section

open scoped BigOperators

namespace Cert.Bridge

open Cert.KernelIdeal Cert.KernelIdeal.Gen Idealize.ShloMosaic Idealize.ShloMosaic.TcCoe Idealize.SL.Sem
open Idealize.ShloMosaic.ValueIdx

variable [Cert.Pre_finite_inputs.Facts]
variable (m : (ℓ : Loc nD τ sig) → Buf (Elt Ideal) ℓ)

/-- The reference's result over the kernel's argument arrays is the kernel's result array. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.ReferenceIdeal.Read.val_main_v18 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))
      = Cert.KernelIdeal.ArrayValue.rowDot (Cert.KernelIdeal.ArrayValue.xarr m c) (Cert.KernelIdeal.ArrayValue.varr m c) := by
  have hd := Cert.PreFacts.decode _ _ _ _ _ _ hpre
  funext i
  obtain ⟨b, q, rfl⟩ : ∃ (b : Fin 8192) (q : Fin 1), i = ix2 b q := ⟨i 0, i 1, eq_ix2 i⟩
  obtain rfl : q = 0 := Subsingleton.elim _ _
  rw [Cert.ReferenceIdeal.RefValue.result_apply _ _ _ _ _ _ hd.fi_range hd.sg_range b,
    Cert.Table.byGroups_eq_byFeatures _ _ _ _ _ _ hd.w_real hd.d_real hd.D_real (fun f => hd.x_real _)]
  unfold Cert.Table.byFeatures Cert.KernelIdeal.ArrayValue.rowDot
  refine Finset.sum_congr rfl fun f _ => ?_
  have hv : Cert.KernelIdeal.ArrayValue.varr m c (ix2 (0 : Fin 1) f)
      = Cert.Table.weight (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) f :=
    Cert.KernelIdeal.HostValue.weights_apply m c hd.fi_range hd.sg_range f
  have hx : Cert.KernelIdeal.ArrayValue.xarr m c = (m ((c.tc : Thread nD τ).loc main_arg0) : S8192x4096.Idx → EReal) := V_main_arg0 m c
  rw [hv, hx]

end Cert.Bridge

end
-- ==== Proof.lean ====
/-
  The certificate's claim: the kernel and its idealization run and leave their arguments alone, the reference runs
  and leaves its arguments alone, the idealization rewrote nothing, and over the extended reals, from memories that
  agree on the six arguments and satisfy the precondition (every float finite, every feature word in [0, 4096), every
  segment word in [0, 1024)), the idealized kernel and the idealized reference end with equal results.

  The kernel folds the 5115-entry table into one weight per feature on the host and takes, block of 1024 rows by
  block, each row's inner product with the weights; the reference gathers the table's columns, weighs them, sums them
  by segment, scales the segment sums by the two per-group factors and adds the groups up. Both are the sum over the
  table's entries of input entry × weight × the entry's group's two factors (Proof/TableSum.lean, Proof/Table.lean);
  Proof/RefValue.lean reads the reference's result that way, Proof/KernelHost.lean, Proof/KernelBody.lean and
  Proof/KernelArray.lean the kernel's, Proof/PreFacts.lean reads the precondition, Proof/Bridge.lean joins them.
-/
import proofs.«411112_j39685497815127_3_alg».proof.Defs
import proofs.«411112_j39685497815127_3_alg».proof.Proof.Gen.Kernel
import proofs.«411112_j39685497815127_3_alg».proof.Proof.Gen.Kernel.Skeleton
import proofs.«411112_j39685497815127_3_alg».proof.Proof.Gen.Kernel.Launch
import proofs.«411112_j39685497815127_3_alg».proof.Proof.Gen.Kernel.Points
import proofs.«411112_j39685497815127_3_alg».proof.Proof.Gen.Kernel.Frame
import proofs.«411112_j39685497815127_3_alg».proof.Proof.Gen.KernelIdeal
import proofs.«411112_j39685497815127_3_alg».proof.Proof.Gen.KernelIdeal.Skeleton
import proofs.«411112_j39685497815127_3_alg».proof.Proof.Gen.KernelIdeal.Launch
import proofs.«411112_j39685497815127_3_alg».proof.Proof.Gen.KernelIdeal.Points
import proofs.«411112_j39685497815127_3_alg».proof.Proof.Gen.KernelIdeal.Frame
import proofs.«411112_j39685497815127_3_alg».proof.Proof.Gen.ReferenceIdeal
import proofs.«411112_j39685497815127_3_alg».proof.Proof.Gen.Pre_finite_inputs
import proofs.«411112_j39685497815127_3_alg».proof.Proof.Gen.KernelIdeal.Value
import proofs.«411112_j39685497815127_3_alg».proof.Proof.Gen.ReferenceIdeal.Run
import proofs.«411112_j39685497815127_3_alg».proof.Proof.Gen.ReferenceIdeal.Read
import proofs.«411112_j39685497815127_3_alg».proof.Proof.Bridge
import Idealize.ShloMosaic.Adequacy
import Idealize.ShloMosaic.Init

noncomputable section

namespace Cert.Proof

open Idealize.ShloMosaic Idealize.SL.Sem

/-- The kernel runs and leaves its arguments alone: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the same result array: each row's inner product with the table's folded weights. -/
theorem algebraic : Cert.algebraic_KernelIdeal_ReferenceIdeal := by
  intro m ρ m' ρ' hpre hagree
  refine ⟨fun c => Cert.KernelIdeal.ArrayValue.rowDot (Cert.KernelIdeal.ArrayValue.xarr m c) (Cert.KernelIdeal.ArrayValue.varr m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v18_eq (F := Ideal) _ _ _ _ _ _).trans (Cert.Bridge.result_eq m c (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
